-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x1000x64 : Shape := ⟨4, ![16, 32, 1000, 64]⟩
abbrev S_ : Shape := ⟨0, ![]⟩

class Facts : Prop where
  bcast_S_S16x32x1000x64 : S_.BroadcastsInDim S16x32x1000x64 (![] : Fin 0 → Fin S16x32x1000x64.rank)
  reducesTo_S16x32x1000x64_S_d0_1_2_3 : S16x32x1000x64.ReducesTo [0, 1, 2, 3] S_
  h_S_ : 0 < S_.numel

variable [Facts]

def fn {F : FTy → Type} [FloatOps F] (main_arg0 : FVec F S16x32x1000x64 .f32) : IVec S_ 1 :=
  let main_v0 : FVec F S16x32x1000x64 .f32 := Host.absf main_arg0
  let main_cst : FVec F S_ .f32 := constant S_ .f32 0x7F800000#32
  let main_v1 : FVec F S16x32x1000x64 .f32 := broadcastInDim S16x32x1000x64 ![] bcast_S_S16x32x1000x64 main_cst
  let main_v2 : IVec S16x32x1000x64 1 := cmpf .olt main_v0 main_v1
  let main_c : IVec S_ 1 := constantI S_ 1 1#1
  let main_v3 : IVec S_ 1 := (fun x v => Host.reduce IntOp.andi x v reducesTo_S16x32x1000x64_S_d0_1_2_3 h_S_) main_v2 main_c
  main_v3
-- ==== Kernel.lean ====
abbrev S16x32x1000x64 : Shape := ⟨4, ![16, 32, 1000, 64]⟩
abbrev S16x32x320x200 : Shape := ⟨4, ![16, 32, 320, 200]⟩
abbrev S1x16x1000x64 : Shape := ⟨4, ![1, 16, 1000, 64]⟩
abbrev S1x16x320x200 : Shape := ⟨4, ![1, 16, 320, 200]⟩
abbrev S16x1000x64 : Shape := ⟨3, ![16, 1000, 64]⟩
abbrev S16x64x1000 : Shape := ⟨3, ![16, 64, 1000]⟩
abbrev S16x320x200 : Shape := ⟨3, ![16, 320, 200]⟩
abbrev S64 : Shape := ⟨1, ![64]⟩
abbrev S64x5 : Shape := ⟨2, ![64, 5]⟩
abbrev S320 : Shape := ⟨1, ![320]⟩
abbrev S5 : Shape := ⟨1, ![5]⟩
abbrev S1x5 : Shape := ⟨2, ![1, 5]⟩

abbrev nBuf : Space → Nat
  | .hbm => 9
  | .vmem => 4
  | .smem => 0
  | _ => 0

abbrev bufTy : (tb : Table) → Fin (tcTables nBuf tb) → BufTy
  | .hbm, ⟨0, _⟩ => ⟨S16x32x1000x64, .f32⟩
  | .hbm, ⟨1, _⟩ => ⟨S16x32x320x200, .f32⟩
  | .hbm, ⟨2, _⟩ => ⟨S64, .i32⟩
  | .hbm, ⟨3, _⟩ => ⟨S64x5, .i32⟩
  | .hbm, ⟨4, _⟩ => ⟨S320, .i32⟩
  | .hbm, ⟨5, _⟩ => ⟨S5, .i32⟩
  | .hbm, ⟨6, _⟩ => ⟨S1x5, .i32⟩
  | .hbm, ⟨7, _⟩ => ⟨S64x5, .i32⟩
  | .hbm, ⟨8, _⟩ => ⟨S320, .i32⟩
  | .local _ .vmem, ⟨0, _⟩ => ⟨S1x16x1000x64, .f32⟩
  | .local _ .vmem, ⟨1, _⟩ => ⟨S1x16x1000x64, .f32⟩
  | .local _ .vmem, ⟨2, _⟩ => ⟨S1x16x320x200, .f32⟩
  | .local _ .vmem, ⟨3, _⟩ => ⟨S1x16x320x200, .f32⟩
  | _, _ => ⟨S16x32x1000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x1000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x320x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x16x1000x64_S1x16x1000x64_0_0_0_0 : ∀ a, (![0, 0, 0, 0] : Fin 4 → Nat) a + S1x16x1000x64.size a ≤ S1x16x1000x64.size a
  h_S1x16x1000x64 : 0 < S1x16x1000x64.numel
  shapeCasts_S1x16x1000x64_S16x1000x64 : S1x16x1000x64.ShapeCasts S16x1000x64
  transposes_S16x1000x64_p0_2_1_S16x64x1000 : S16x1000x64.Transposes [0, 2, 1] S16x64x1000
  shapeCasts_S16x64x1000_S16x320x200 : S16x64x1000.ShapeCasts S16x320x200
  inb_S1x16x320x200_S1x16x320x200_0_0_0_0 : ∀ a, (![0, 0, 0, 0] : Fin 4 → Nat) a + S1x16x320x200.size a ≤ S1x16x320x200.size a
  h_S1x16x320x200 : 0 < S1x16x320x200.numel
  shapeCasts_S1x16x320x200_S16x320x200 : S1x16x320x200.ShapeCasts S16x320x200
  shapeCasts_S16x320x200_S1x16x320x200 : S16x320x200.ShapeCasts S1x16x320x200
  bcast_S64_S64x5_0 : S64.BroadcastsInDim S64x5 (![0] : Fin 1 → Fin S64x5.rank)
  shapeCasts_S64x5_S320 : S64x5.ShapeCasts S320
  shapeCasts_S5_S1x5 : S5.ShapeCasts S1x5
  bcast_S1x5_S64x5_0_1 : S1x5.BroadcastsInDim S64x5 (![0, 1] : Fin 2 → Fin S64x5.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x1000x64.size a ≤ S16x32x1000x64.size a
  hwx0_0 : ∀ i : grid0.Coords, EltTy.bits .f32 = 32 ∨ (Rect.block (s := S16x32x1000x64) S1x16x1000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x320x200.size a ≤ S16x32x320x200.size a
  hwx0_1 : ∀ i : grid0.Coords, EltTy.bits .f32 = 32 ∨ (Rect.block (s := S16x32x320x200) S1x16x320x200.size (cc0_transform_1 i) (hinb0_1 i)).WholeWords (EltTy.packing .f32)

variable [Facts₀]

abbrev win0_0 : Pipeline.Window sig grid0 :=
  Pipeline.Window.ofSpec (Memref.whole main_arg0) S1x16x1000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x16x320x200.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x32x1000x64 : Shape := ⟨4, ![16, 32, 1000, 64]⟩
abbrev S16x32x64x1000 : Shape := ⟨4, ![16, 32, 64, 1000]⟩
abbrev S16x32x320x200 : Shape := ⟨4, ![16, 32, 320, 200]⟩
abbrev S64 : Shape := ⟨1, ![64]⟩
abbrev S64x5 : Shape := ⟨2, ![64, 5]⟩
abbrev S320 : Shape := ⟨1, ![320]⟩
abbrev S5 : Shape := ⟨1, ![5]⟩
abbrev S1x5 : Shape := ⟨2, ![1, 5]⟩

abbrev nBuf : Space → Nat
  | .hbm => 10
  | .vmem => 0
  | .smem => 0
  | _ => 0

abbrev bufTy : (tb : Table) → Fin (tcTables nBuf tb) → BufTy
  | .hbm, ⟨0, _⟩ => ⟨S16x32x1000x64, .f32⟩
  | .hbm, ⟨1, _⟩ => ⟨S16x32x64x1000, .f32⟩
  | .hbm, ⟨2, _⟩ => ⟨S16x32x320x200, .f32⟩
  | .hbm, ⟨3, _⟩ => ⟨S64, .i32⟩
  | .hbm, ⟨4, _⟩ => ⟨S64x5, .i32⟩
  | .hbm, ⟨5, _⟩ => ⟨S320, .i32⟩
  | .hbm, ⟨6, _⟩ => ⟨S5, .i32⟩
  | .hbm, ⟨7, _⟩ => ⟨S1x5, .i32⟩
  | .hbm, ⟨8, _⟩ => ⟨S64x5, .i32⟩
  | .hbm, ⟨9, _⟩ => ⟨S320, .i32⟩
  | _, _ => ⟨S16x32x1000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]

class Facts₀ : Prop where
  transposes_S16x32x1000x64_S16x32x64x1000_0_1_3_2 : S16x32x1000x64.Transposes [0, 1, 3, 2] S16x32x64x1000
  shapeCasts_S16x32x64x1000_S16x32x320x200 : S16x32x64x1000.ShapeCasts S16x32x320x200
  bcast_S64_S64x5_0 : S64.BroadcastsInDim S64x5 (![0] : Fin 1 → Fin S64x5.rank)
  shapeCasts_S64x5_S320 : S64x5.ShapeCasts S320
  shapeCasts_S5_S1x5 : S5.ShapeCasts S1x5
  bcast_S1x5_S64x5_0_1 : S1x5.BroadcastsInDim S64x5 (![0, 1] : Fin 2 → Fin S64x5.rank)

variable [Facts₀]

class Facts : Prop extends Facts₀ where

variable [Facts]
-- ==== Proof.Layout.lean ====
/-
  The patcher's index arithmetic, apart from any program.

  A recording `x[b, w, tt, ch]` (batch, window, time sample, channel; 1000 samples, 64 channels) is cut into patches of
  200 consecutive samples of ONE channel, listed channel by channel: patch row `j` of the 320 = 64 · 5 rows is patch
  `j % 5` of channel `j / 5`. Written flat, entry `p` of row `j` sits at position `200 j + p` of the channel-major
  64 × 1000 matrix, so its channel is `(200 j + p) / 1000` and its time sample `(200 j + p) % 1000`:

      patches x [b, w, j, p] = x [b, w, (200 j + p) % 1000, (200 j + p) / 1000].

  Both programs reach this array by a transposition of the last two axes followed by a row-major regrouping
  [64, 1000] → [320, 200]; one does it on the whole array, the other on slabs of sixteen windows of one batch element.
  The two lemmas below read each chain at an index.
-/
import Idealize.ShloMosaic.Lib.ValueIdx
import Idealize.ShloMosaic.Lib.ValueLayout
import Idealize.ShloMosaic.Lib.Pipeline.Value

namespace Patcher

open Idealize.ShloMosaic Idealize.ShloMosaic.ValueIdx

variable {α : Type}

/-- The channel that entry `p` of patch row `j` comes from. -/
def chan (j : Fin 320) (p : Fin 200) : Fin 64 :=
  ⟨(j.val * 200 + p.val) / 1000, by have := j.isLt; have := p.isLt; omega⟩

/-- Its time sample. -/
def time (j : Fin 320) (p : Fin 200) : Fin 1000 :=
  ⟨(j.val * 200 + p.val) % 1000, by omega⟩

/-- Channel-major position `1000 · channel + time` is patch-major position `200 · row + offset`. -/
theorem chan_time (j : Fin 320) (p : Fin 200) :
    (chan j p).val * 1000 + (time j p).val = j.val * 200 + p.val := by
  show (j.val * 200 + p.val) / 1000 * 1000 + (j.val * 200 + p.val) % 1000 = _
  omega

/-- The patches of a recording, index by index. -/
def patches (x : (⟨4, ![16, 32, 1000, 64]⟩ : Shape).Idx → α) : (⟨4, ![16, 32, 320, 200]⟩ : Shape).Idx → α :=
  fun i => x (ix4 (i 0) (i 1) (time (i 2) (i 3)) (chan (i 2) (i 3)))

theorem patches_ix4 (x : (⟨4, ![16, 32, 1000, 64]⟩ : Shape).Idx → α) (b : Fin 16) (w : Fin 32) (j : Fin 320) (p : Fin 200) :
    patches x (ix4 b w j p) = x (ix4 b w (time j p) (chan j p)) := rfl

/-- `patches` read at an index, the recording's index named by the caller through its four coordinates. -/
theorem patches_at (x : (⟨4, ![16, 32, 1000, 64]⟩ : Shape).Idx → α) (i : (⟨4, ![16, 32, 320, 200]⟩ : Shape).Idx)
    (k : (⟨4, ![16, 32, 1000, 64]⟩ : Shape).Idx)
    (h0 : (k 0).val = (i 0).val) (h1 : (k 1).val = (i 1).val)
    (h2 : (k 2).val = ((i 2).val * 200 + (i 3).val) % 1000)
    (h3 : (k 3).val = ((i 2).val * 200 + (i 3).val) / 1000) : patches x i = x k := by
  unfold patches
  refine congrArg x (funext fun a => Fin.ext ?_)
  match a with
  | ⟨0, _⟩ => exact h0.symm
  | ⟨1, _⟩ => exact h1.symm
  | ⟨2, _⟩ => exact h2.symm
  | ⟨3, _⟩ => exact h3.symm

/-- ONE SLAB (sixteen windows of one batch element, with its leading unit axis): drop the unit axis, swap time and
    channel, regroup each window's 64 × 1000 matrix as 320 × 200, put the unit axis back. At `(u, wl, j, p)` this reads
    the slab at `(0, wl, time, channel)`. -/
theorem slab_apply (v : (⟨4, ![1, 16, 1000, 64]⟩ : Shape).Idx → α)
    (h1 : (⟨4, ![1, 16, 1000, 64]⟩ : Shape).ShapeCasts ⟨3, ![16, 1000, 64]⟩)
    (h2 : (⟨3, ![16, 1000, 64]⟩ : Shape).Transposes [0, 2, 1] ⟨3, ![16, 64, 1000]⟩)
    (h3 : (⟨3, ![16, 64, 1000]⟩ : Shape).ShapeCasts ⟨3, ![16, 320, 200]⟩)
    (h4 : (⟨3, ![16, 320, 200]⟩ : Shape).ShapeCasts ⟨4, ![1, 16, 320, 200]⟩)
    (u : Fin 1) (wl : Fin 16) (j : Fin 320) (p : Fin 200) :
    shapeCast ⟨4, ![1, 16, 320, 200]⟩
        (shapeCast ⟨3, ![16, 320, 200]⟩
          (transpose ⟨3, ![16, 64, 1000]⟩ [0, 2, 1] (shapeCast ⟨3, ![16, 1000, 64]⟩ v h1) h2) h3) h4 (ix4 u wl j p)
      = v (ix4 (0 : Fin 1) wl (time j p) (chan j p)) := by
  rw [shapeCast_abc_1abc_apply]
  rw [shapeCast_apply _ h3 (ix3 wl j p) (ix3 wl (chan j p) (time j p)) (by
    rw [Shape.rowMajor_val_three, Shape.rowMajor_val_three]
    show (wl.val * 64 + (chan j p).val) * 1000 + (time j p).val = (wl.val * 320 + j.val) * 200 + p.val
    have := chan_time j p
    omega)]
  rw [transpose_ix3_021_apply, shapeCast_1abc_abc_apply]

/-- THE WHOLE ARRAY: swap time and channel, regroup each window's 64 × 1000 matrix as 320 × 200. That is `patches`. -/
theorem whole_eq (x : (⟨4, ![16, 32, 1000, 64]⟩ : Shape).Idx → α)
    (h1 : (⟨4, ![16, 32, 1000, 64]⟩ : Shape).Transposes [0, 1, 3, 2] ⟨4, ![16, 32, 64, 1000]⟩)
    (h2 : (⟨4, ![16, 32, 64, 1000]⟩ : Shape).ShapeCasts ⟨4, ![16, 32, 320, 200]⟩) :
    shapeCast ⟨4, ![16, 32, 320, 200]⟩ (transpose ⟨4, ![16, 32, 64, 1000]⟩ [0, 1, 3, 2] x h1) h2 = patches x := by
  funext i
  obtain ⟨b, w, j, p, rfl⟩ : ∃ (b : Fin 16) (w : Fin 32) (j : Fin 320) (p : Fin 200), i = ix4 b w j p :=
    ⟨i 0, i 1, i 2, i 3, eq_ix4 i⟩
  rw [patches_ix4]
  rw [shapeCast_apply _ h2 (ix4 b w j p) (ix4 b w (chan j p) (time j p)) (by
    rw [Shape.rowMajor_val_four, Shape.rowMajor_val_four]
    show ((b.val * 32 + w.val) * 64 + (chan j p).val) * 1000 + (time j p).val
      = ((b.val * 32 + w.val) * 320 + j.val) * 200 + p.val
    have := chan_time j p
    omega)]
  exact transpose_apply _ x h1 _ _ fun c => match c with
    | ⟨0, _⟩ => rfl | ⟨1, _⟩ => rfl | ⟨2, _⟩ => rfl | ⟨3, _⟩ => rfl

end Patcher
-- ==== Proof.KernelValue.lean ====
/-
  What the kernel leaves in its result arrays.

  The grid has one point per batch element `b` and half `h` of the 32 windows. The point reads the slab
  `x[b, 16h … 16h+15, :, :]`, turns it into that slab's patches (`Patcher.slab_apply`) and writes them to
  `out[b, 16h … 16h+15, :, :]`. Input and output slabs sit at the same batch element and the same sixteen windows, and
  `patches` moves nothing across windows, so every point writes a block of ONE array, `patches x`; the 32 blocks tile
  the result, which therefore ends at `patches x`. The two integer vectors are computed after the call from nothing
  but iotas: row `j`'s channel `j / 5` and its patch number `j % 5`, as a broadcast regrouped row-major.
-/
import proofs.«171414_j82669530513970_1_alg».proof.Proof.Gen.KernelIdeal.Frame
import proofs.«171414_j82669530513970_1_alg».proof.Proof.Layout
import Idealize.ShloMosaic.Lib.Pipeline.Value
import Idealize.ShloMosaic.Lib.StableHlo.Run

set_option maxRecDepth 16384

noncomputable section

namespace Cert.KernelIdeal.Patches

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.StableHlo
open Patcher

variable {F : FTy → Type} [FloatOps F]
variable (m : (ℓ : Loc nD τ sig) → Buf (Elt F) ℓ) (ρ : Dev nD → PrngReg)

theorem hz : (![0, 0, 0, 0] : Fin 4 → Nat) = fun _ => 0 := funext fun a => by fin_cases a <;> rfl

/-- The result array as a function of the recording. -/
abbrev out (x : S16x32x1000x64.Idx → Elt F .f32) : S16x32x320x200.Idx → Elt F .f32 := patches x

/-- Each patch row's channel, and its patch number within the channel. -/
def rowChannel : (⟨S320, .i32⟩ : BufTy).Contents (Elt F) :=
  shapeCast _ (broadcastInDim S64x5 ![0] bcast_S64_S64x5_0 (iotaInDim S64 32 0)) shapeCasts_S64x5_S320
def rowPatch : (⟨S320, .i32⟩ : BufTy).Contents (Elt F) :=
  shapeCast _ (broadcastInDim S64x5 ![0, 1] bcast_S1x5_S64x5_0_1 (shapeCast _ (iotaInDim S5 32 0) shapeCasts_S5_S1x5)) shapeCasts_S64x5_S320

/-- What the body stores, at an index of its slab: the loaded slab at the same window, time and channel exchanged and
    regrouped. -/
theorem pay_apply (v : Vec F S1x16x1000x64 .f32) (y : S1x16x320x200.Idx) :
    k0_pay1 v y = v (ix4 (0 : Fin 1) (y 1) (time (y 2) (y 3)) (chan (y 2) (y 3))) := by
  obtain ⟨u, wl, j, p, rfl⟩ : ∃ (u : Fin 1) (wl : Fin 16) (j : Fin 320) (p : Fin 200), y = ix4 u wl j p :=
    ⟨y 0, y 1, y 2, y 3, eq_ix4 y⟩
  unfold k0_pay1
  exact slab_apply v _ _ _ _ u wl j p

/-- Over the 32 grid points: the input and output slabs sit at the same batch element and the same half of the windows,
    and both span the last two axes whole. -/
theorem idx_facts : ∀ t : Fin cfg0.N,
    win0_0.index t (0 : Fin 4) = win0_1.index t (0 : Fin 4)
    ∧ win0_0.index t (1 : Fin 4) = win0_1.index t (1 : Fin 4)
    ∧ win0_0.index t (2 : Fin 4) = 0 ∧ win0_0.index t (3 : Fin 4) = 0
    ∧ win0_1.index t (2 : Fin 4) = 0 ∧ win0_1.index t (3 : Fin 4) = 0 :=
  (by decide +kernel : ∀ t : Fin grid0.N, _)

/-- Every (batch element, half) is some point's. -/
theorem idx_onto : ∀ (q0 : Fin 16) (q1 : Fin 2), ∃ t : Fin cfg0.N, win0_1.index t = ![q0.val, q1.val, 0, 0] :=
  (by decide +kernel : ∀ (q0 : Fin 16) (q1 : Fin 2), ∃ t : Fin grid0.N, win0_1.index t = ![q0.val, q1.val, 0, 0])

/-- WHAT POINT `t` WRITES BACK is block `t` of the recording's patches. -/
theorem flushed_eq (c : Dev nD) (t : Fin cfg0.N) :
    (dats m 0 c).flushed 1 t = ((cfg0.win 1).blk t).view.read (Elt F) (out (V m c main_arg0)) := by
  show (cfg0.win 1).cut (grid0.coords t) ((dats m 0 c).after 1 t) = _
  rw [after0_1]
  unfold out0_1
  rw [View.canon_unit_zero hz]
  simp only [View.ld_unit_zero (S := S1x16x1000x64) hz]
  obtain ⟨e0, e1, e2, e3, e4, e5⟩ := idx_facts t
  funext y
  show k0_pay1 (iblk m c 0 t) y = patches (V m c main_arg0) (((cfg0.win 1).blk t).view.emb y)
  refine (pay_apply (iblk m c 0 t) y).trans ?_
  show V m c main_arg0 (((cfg0.win 0).blk t).view.emb (ix4 (0 : Fin 1) (y 1) (time (y 2) (y 3)) (chan (y 2) (y 3)))) = _
  have y0 : (y 0).val < 1 := (y 0).isLt
  have y1 : (y 1).val < 16 := (y 1).isLt
  have y2 : (y 2).val < 320 := (y 2).isLt
  have y3 : (y 3).val < 200 := (y 3).isLt
  refine (patches_at _ _ _ ?_ ?_ ?_ ?_).symm
  · show win0_0.index t (0 : Fin 4) * 1 + 1 * 0 = win0_1.index t (0 : Fin 4) * 1 + 1 * (y 0).val
    omega
  · show win0_0.index t (1 : Fin 4) * 16 + 1 * (y 1).val = win0_1.index t (1 : Fin 4) * 16 + 1 * (y 1).val
    omega
  · show win0_0.index t (2 : Fin 4) * 1000 + 1 * (((y 2).val * 200 + (y 3).val) % 1000)
      = ((win0_1.index t (2 : Fin 4) * 320 + 1 * (y 2).val) * 200 + (win0_1.index t (3 : Fin 4) * 200 + 1 * (y 3).val)) % 1000
    rw [e2, e4, e5]; omega
  · show win0_0.index t (3 : Fin 4) * 64 + 1 * (((y 2).val * 200 + (y 3).val) / 1000)
      = ((win0_1.index t (2 : Fin 4) * 320 + 1 * (y 2).val) * 200 + (win0_1.index t (3 : Fin 4) * 200 + 1 * (y 3).val)) / 1000
    rw [e3, e4, e5]; omega

/-- An index of the result is in point `t`'s block iff each coordinate is in the block's range on its axis. -/
theorem mem_blk (t : Fin cfg0.N) (i : S16x32x320x200.Idx) :
    i ∈ ((cfg0.win 1).blk t).view.set ↔ ∀ a : Fin 4, win0_1.index t a * S1x16x320x200.size a ≤ (i a).val ∧ (i a).val < win0_1.index t a * S1x16x320x200.size a + S1x16x320x200.size a := by
  show i ∈ ((View.whole main_v0).slice (win0_1.rect t)).set ↔ _
  rw [View.set_slice_whole, Rect.mem_set_unit]
  exact Iff.rfl

/-- The blocks tile the result: index `(b, w, j, p)` is in the block of the point at batch element `b`, half `w / 16`. -/
theorem cover (i : S16x32x320x200.Idx) :
    ∃ t : Fin cfg0.N, (cfg0.win 1).flush t = true ∧ i ∈ ((cfg0.win 1).blk t).view.set := by
  have hi0 : (i 0).val < 16 := (i 0).isLt
  have hi1 : (i 1).val < 32 := (i 1).isLt
  have hi2 : (i 2).val < 320 := (i 2).isLt
  have hi3 : (i 3).val < 200 := (i 3).isLt
  obtain ⟨t, ht⟩ := idx_onto ⟨(i 0).val, hi0⟩ ⟨(i 1).val / 16, by omega⟩
  have q0 : win0_1.index t (0 : Fin 4) = (i 0).val := congrFun ht 0
  have q1 : win0_1.index t (1 : Fin 4) = (i 1).val / 16 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 16 ≤ (i 1).val ∧ (i 1).val < win0_1.index t (1 : Fin 4) * 16 + 16; omega
  | ⟨2, _⟩ => show win0_1.index t (2 : Fin 4) * 320 ≤ (i 2).val ∧ (i 2).val < win0_1.index t (2 : Fin 4) * 320 + 320; omega
  | ⟨3, _⟩ => show win0_1.index t (3 : Fin 4) * 200 ≤ (i 3).val ∧ (i 3).val < win0_1.index t (3 : Fin 4) * 200 + 200; omega

/-- THE RESULT ARRAY after the call: the recording's patches. -/
theorem final (c : Dev nD) : (dats m 0 c).arrAt 1 cfg0.N = out (V m c main_arg0) :=
  (dats m 0 c).arrAt_eq_of_cover 1 (out (V m c main_arg0)) (fun t _ => flushed_eq m c t) cover

/-! ## The two integer vectors, computed after the call -/

theorem mem_v3 : main_v3 ∈ Pipeline.restRefs sig (cfgs (0 : Fin 1)).spec :=
  Pipeline.mem_restRefs_of main_v3 rfl (by decide)
theorem mem_v7 : main_v7 ∈ Pipeline.restRefs sig (cfgs (0 : Fin 1)).spec :=
  Pipeline.mem_restRefs_of main_v7 rfl (by decide)

theorem tail_v3 (c : Dev nD) :
    Pipeline.afterTail₀ cfgs (dats m) 0 (V0 m) [hostOps1] c main_v3 = rowChannel (F := F) := by
  unfold Pipeline.afterTail₀
  show StableHlo.after hostOps1 _ (Proc.devRef .tc main_v3) = _
  after_results
  rfl

theorem tail_v7 (c : Dev nD) :
    Pipeline.afterTail₀ cfgs (dats m) 0 (V0 m) [hostOps1] c main_v7 = rowPatch (F := F) := by
  unfold Pipeline.afterTail₀
  show StableHlo.after hostOps1 _ (Proc.devRef .tc main_v7) = _
  after_results
  rfl

/-! ## The run, read -/

theorem run : θ_run defs (onTc (τ := τ) (main (F := F))) ⟨m, fun _ => 0, ρ⟩ fun r => ∀ c : Dev nD,
      r.2.mem ((c : Thread nD τ).loc main_v0) = out (m ((c : Thread nD τ).loc main_arg0))
      ∧ r.2.mem ((c : Thread nD τ).loc main_v3) = rowChannel (F := F)
      ∧ r.2.mem ((c : Thread nD τ).loc main_v7) = rowPatch (F := F)
      ∧ r.2.mem ((c : Thread nD τ).loc main_arg0) = m ((c : Thread nD τ).loc main_arg0) :=
  (θ_run defs _ _).mono (fun r h c => ⟨((h c).1 1).trans (final m c),
      ((h c).2 main_v3 mem_v3).trans (tail_v3 m c),
      ((h c).2 main_v7 mem_v7).trans (tail_v7 m c),
      ((h c).1 0).trans (((dats m 0 c).arrAt_in 0 rfl _).trans ((A_eq m c 0).trans (V_main_arg0 m c)))⟩)
    (run_main m ρ)

end Cert.KernelIdeal.Patches

end
-- ==== Proof.RefValue.lean ====
/-
  What the reference leaves in its result arrays: its own run, with the first result read as the recording's patches
  (`Patcher.whole_eq`: the transposition of the last two axes, regrouped row-major, index by index).
-/
import proofs.«171414_j82669530513970_1_alg».proof.Proof.Gen.ReferenceIdeal.Run
import proofs.«171414_j82669530513970_1_alg».proof.Proof.Layout

noncomputable section

namespace Cert.ReferenceIdeal.Patches

open Cert.ReferenceIdeal Cert.ReferenceIdeal.Gen Idealize.ShloMosaic Idealize.ShloMosaic.TcCoe Idealize.SL.Sem
open Patcher

variable {F : FTy → Type} [FloatOps F]

/-- The transposed and regrouped recording is its patches. -/
theorem result_eq (x : S16x32x1000x64.Idx → Elt F .f32) :
    shapeCast S16x32x320x200 (transpose S16x32x64x1000 [0, 1, 3, 2] x transposes_S16x32x1000x64_S16x32x64x1000_0_1_3_2)
        shapeCasts_S16x32x64x1000_S16x32x320x200
      = patches x :=
  whole_eq x _ _

end Cert.ReferenceIdeal.Patches

end
-- ==== Proof.lean ====
/-
  The patcher kernel against its reference, over the extended reals.

  Both programs move data and compute nothing: from a recording `x[b, w, tt, ch]` they produce
  `x[b, w, (200 j + p) % 1000, (200 j + p) / 1000]` at `[b, w, j, p]` — 200-sample patches listed channel by channel
  (Proof/Layout.lean) — together with each patch row's channel and patch number, two integer vectors built from iotas
  by the same three operations in both programs. The kernel works slab by slab (Proof/KernelValue.lean), the reference
  on the whole array (Proof/RefValue.lean). No arithmetic is done on the entries, so the finiteness of the input is
  never used. The kernel's idealization rewrote nothing, so there is nothing to preserve.
-/
import proofs.«171414_j82669530513970_1_alg».proof.Defs
import proofs.«171414_j82669530513970_1_alg».proof.Proof.Gen.Kernel
import proofs.«171414_j82669530513970_1_alg».proof.Proof.Gen.Kernel.Frame
import proofs.«171414_j82669530513970_1_alg».proof.Proof.Gen.KernelIdeal
import proofs.«171414_j82669530513970_1_alg».proof.Proof.Gen.KernelIdeal.Frame
import proofs.«171414_j82669530513970_1_alg».proof.Proof.Gen.ReferenceIdeal
import proofs.«171414_j82669530513970_1_alg».proof.Proof.Gen.ReferenceIdeal.Run
import proofs.«171414_j82669530513970_1_alg».proof.Proof.Gen.Pre_finite_inputs
import proofs.«171414_j82669530513970_1_alg».proof.Proof.KernelValue
import proofs.«171414_j82669530513970_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- Both runs end with the recording's patches in the first result and the same two iota-built vectors in the
    others; the recordings agree by hypothesis. -/
theorem algebraic : Cert.algebraic_KernelIdeal_ReferenceIdeal := by
  intro m ρ m' ρ' _ hagree
  refine ⟨_, _, _, Cert.KernelIdeal.Patches.run (F := Ideal) m ρ, ?_⟩
  refine (θ_run Cert.ReferenceIdeal.defs _ _).mono (fun _ h c => ⟨?_, ?_, ?_, (h c).2.2.2⟩)
    (Cert.ReferenceIdeal.Value.run (F := Ideal) m' ρ')
  · rw [(h c).1, hagree c]
    exact Cert.ReferenceIdeal.Patches.result_eq _
  · exact (h c).2.1
  · exact (h c).2.2.1

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
